-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x65536 : Shape := ⟨3, ![16, 64, 65536]⟩
abbrev S16x3x65536 : Shape := ⟨3, ![16, 3, 65536]⟩
abbrev S_ : Shape := ⟨0, ![]⟩

class Facts : Prop where
  bcast_S_S16x64x65536 : S_.BroadcastsInDim S16x64x65536 (![] : Fin 0 → Fin S16x64x65536.rank)
  reducesTo_S16x64x65536_S_d0_1_2 : S16x64x65536.ReducesTo [0, 1, 2] S_
  h_S_ : 0 < S_.numel
  bcast_S_S16x3x65536 : S_.BroadcastsInDim S16x3x65536 (![] : Fin 0 → Fin S16x3x65536.rank)
  reducesTo_S16x3x65536_S_d0_1_2 : S16x3x65536.ReducesTo [0, 1, 2] S_

variable [Facts]

def fn {F : FTy → Type} [FloatOps F] (main_arg0 : FVec F S16x64x65536 .f32) (main_arg1 : FVec F S16x3x65536 .f32) : IVec S_ 1 :=
  let main_v0 : FVec F S16x64x65536 .f32 := Host.absf main_arg0
  let main_cst : FVec F S_ .f32 := constant S_ .f32 0x7F800000#32
  let main_v1 : FVec F S16x64x65536 .f32 := broadcastInDim S16x64x65536 ![] bcast_S_S16x64x65536 main_cst
  let main_v2 : IVec S16x64x65536 1 := cmpf .olt main_v0 main_v1
  let main_c : IVec S_ 1 := constantI S_ 1 1#1
  let main_v3 : IVec S_ 1 := (fun x v => Host.reduce IntOp.andi x v reducesTo_S16x64x65536_S_d0_1_2 h_S_) main_v2 main_c
  let main_v4 : FVec F S16x3x65536 .f32 := Host.absf main_arg1
  let main_cst_0 : FVec F S_ .f32 := constant S_ .f32 0x7F800000#32
  let main_v5 : FVec F S16x3x65536 .f32 := broadcastInDim S16x3x65536 ![] bcast_S_S16x3x65536 main_cst_0
  let main_v6 : IVec S16x3x65536 1 := cmpf .olt main_v4 main_v5
  let main_c_1 : IVec S_ 1 := constantI S_ 1 1#1
  let main_v7 : IVec S_ 1 := (fun x v => Host.reduce IntOp.andi x v reducesTo_S16x3x65536_S_d0_1_2 h_S_) main_v6 main_c_1
  let main_v8 : IVec S_ 1 := andi main_v3 main_v7
  main_v8
-- ==== Kernel.lean ====
abbrev S16x64x65536 : Shape := ⟨3, ![16, 64, 65536]⟩
abbrev S16x3x65536 : Shape := ⟨3, ![16, 3, 65536]⟩
abbrev S16x1x65536 : Shape := ⟨3, ![16, 1, 65536]⟩
abbrev S1x3x65536 : Shape := ⟨3, ![1, 3, 65536]⟩
abbrev S1x1x65536 : Shape := ⟨3, ![1, 1, 65536]⟩
abbrev S3x65536 : Shape := ⟨2, ![3, 65536]⟩
abbrev S3 : Shape := ⟨1, ![3]⟩
abbrev S3x1 : Shape := ⟨2, ![3, 1]⟩
abbrev S65536 : Shape := ⟨1, ![65536]⟩
abbrev S1x65536 : Shape := ⟨2, ![1, 65536]⟩
abbrev S1 : Shape := ⟨1, ![1]⟩
abbrev S1x1 : Shape := ⟨2, ![1, 1]⟩
abbrev S16x65536 : Shape := ⟨2, ![16, 65536]⟩
abbrev S1048576 : Shape := ⟨1, ![1048576]⟩
abbrev S16x65536x64 : Shape := ⟨3, ![16, 65536, 64]⟩
abbrev S1048576x64 : Shape := ⟨2, ![1048576, 64]⟩
abbrev S_ : Shape := ⟨0, ![]⟩
abbrev S524288x64 : Shape := ⟨2, ![524288, 64]⟩
abbrev S1048576x1 : Shape := ⟨2, ![1048576, 1]⟩
abbrev S524288 : Shape := ⟨1, ![524288]⟩
abbrev S8192x64 : Shape := ⟨2, ![8192, 64]⟩
abbrev S8192 : Shape := ⟨1, ![8192]⟩
abbrev S8192x1 : Shape := ⟨2, ![8192, 1]⟩
abbrev S16x32x32x32x64 : Shape := ⟨5, ![16, 32, 32, 32, 64]⟩
abbrev S16x64x32x32x32 : Shape := ⟨5, ![16, 64, 32, 32, 32]⟩

abbrev nBuf : Space → Nat
  | .hbm => 21
  | .vmem => 12
  | .smem => 0
  | _ => 0

abbrev bufTy : (tb : Table) → Fin (tcTables nBuf tb) → BufTy
  | .hbm, ⟨0, _⟩ => ⟨S16x64x65536, .f32⟩
  | .hbm, ⟨1, _⟩ => ⟨S16x3x65536, .f32⟩
  | .hbm, ⟨2, _⟩ => ⟨S16x3x65536, .f32⟩
  | .hbm, ⟨3, _⟩ => ⟨S16x1x65536, .i32⟩
  | .hbm, ⟨4, _⟩ => ⟨S16x65536, .i32⟩
  | .hbm, ⟨5, _⟩ => ⟨S1048576, .i32⟩
  | .hbm, ⟨6, _⟩ => ⟨S16x65536x64, .f32⟩
  | .hbm, ⟨7, _⟩ => ⟨S1048576x64, .f32⟩
  | .hbm, ⟨8, _⟩ => ⟨S_, .f32⟩
  | .hbm, ⟨9, _⟩ => ⟨S524288x64, .f32⟩
  | .hbm, ⟨10, _⟩ => ⟨S1048576x1, .i32⟩
  | .hbm, ⟨11, _⟩ => ⟨S524288x64, .f32⟩
  | .hbm, ⟨12, _⟩ => ⟨S_, .f32⟩
  | .hbm, ⟨13, _⟩ => ⟨S1048576, .f32⟩
  | .hbm, ⟨14, _⟩ => ⟨S_, .f32⟩
  | .hbm, ⟨15, _⟩ => ⟨S524288, .f32⟩
  | .hbm, ⟨16, _⟩ => ⟨S1048576x1, .i32⟩
  | .hbm, ⟨17, _⟩ => ⟨S524288, .f32⟩
  | .hbm, ⟨18, _⟩ => ⟨S524288x64, .f32⟩
  | .hbm, ⟨19, _⟩ => ⟨S16x32x32x32x64, .f32⟩
  | .hbm, ⟨20, _⟩ => ⟨S16x64x32x32x32, .f32⟩
  | .local _ .vmem, ⟨0, _⟩ => ⟨S1x3x65536, .f32⟩
  | .local _ .vmem, ⟨1, _⟩ => ⟨S1x3x65536, .f32⟩
  | .local _ .vmem, ⟨2, _⟩ => ⟨S1x3x65536, .f32⟩
  | .local _ .vmem, ⟨3, _⟩ => ⟨S1x3x65536, .f32⟩
  | .local _ .vmem, ⟨4, _⟩ => ⟨S1x1x65536, .i32⟩
  | .local _ .vmem, ⟨5, _⟩ => ⟨S1x1x65536, .i32⟩
  | .local _ .vmem, ⟨6, _⟩ => ⟨S8192x64, .f32⟩
  | .local _ .vmem, ⟨7, _⟩ => ⟨S8192x64, .f32⟩
  | .local _ .vmem, ⟨8, _⟩ => ⟨S8192, .f32⟩
  | .local _ .vmem, ⟨9, _⟩ => ⟨S8192, .f32⟩
  | .local _ .vmem, ⟨10, _⟩ => ⟨S8192x64, .f32⟩
  | .local _ .vmem, ⟨11, _⟩ => ⟨S8192x64, .f32⟩
  | _, _ => ⟨S16x64x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x65536 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x3x65536_S1x3x65536_0_0_0 : ∀ a, (![0, 0, 0] : Fin 3 → Nat) a + S1x3x65536.size a ≤ S1x3x65536.size a
  h_S1x3x65536 : 0 < S1x3x65536.numel
  shapeCasts_S1x3x65536_S3x65536 : S1x3x65536.ShapeCasts S3x65536
  reduces_S3x65536_S3 : S3x65536.Reduces [1] S3
  shapeCasts_S3_S3x1 : S3.ShapeCasts S3x1
  broadcasts_S3x1_S3x65536 : S3x1.Broadcasts S3x65536
  reduces_S3x65536_S65536 : S3x65536.Reduces [0] S65536
  shapeCasts_S65536_S1x65536 : S65536.ShapeCasts S1x65536
  reduces_S1x65536_S1 : S1x65536.Reduces [1] S1
  shapeCasts_S1_S1x1 : S1.ShapeCasts S1x1
  broadcasts_S1x1_S3x65536 : S1x1.Broadcasts S3x65536
  shapeCasts_S3x65536_S1x3x65536 : S3x65536.ShapeCasts S1x3x65536
  slices_S3x65536_o0_0_S1x65536 : S3x65536.Slices ![0, 0] S1x65536
  slices_S3x65536_o1_0_S1x65536 : S3x65536.Slices ![1, 0] S1x65536
  slices_S3x65536_o2_0_S1x65536 : S3x65536.Slices ![2, 0] S1x65536
  inb_S1x1x65536_S1x1x65536_0_0_0 : ∀ a, (![0, 0, 0] : Fin 3 → Nat) a + S1x1x65536.size a ≤ S1x1x65536.size a
  h_S1x1x65536 : 0 < S1x1x65536.numel
  shapeCasts_S1x1x65536_S1x65536 : S1x1x65536.ShapeCasts S1x65536
  shapeCasts_S1x65536_S1x1x65536 : S1x65536.ShapeCasts S1x1x65536
  shapeCasts_S16x1x65536_S16x65536 : S16x1x65536.ShapeCasts S16x65536
  shapeCasts_S16x65536_S1048576 : S16x65536.ShapeCasts S1048576
  transposes_S16x64x65536_S16x65536x64_0_2_1 : S16x64x65536.Transposes [0, 2, 1] S16x65536x64
  shapeCasts_S16x65536x64_S1048576x64 : S16x65536x64.ShapeCasts S1048576x64
  bcast_S_S524288x64 : S_.BroadcastsInDim S524288x64 (![] : Fin 0 → Fin S524288x64.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S524288 : S_.BroadcastsInDim S524288 (![] : Fin 0 → Fin S524288.rank)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192_S8192_0 : ∀ a, (![0] : Fin 1 → Nat) a + S8192.size a ≤ S8192.size a
  h_S8192 : 0 < S8192.numel
  shapeCasts_S8192_S8192 : S8192.ShapeCasts S8192
  shapeCasts_S8192_S8192x1 : S8192.ShapeCasts S8192x1
  broadcasts_S8192x1_S8192x64 : S8192x1.Broadcasts S8192x64
  shapeCasts_S524288x64_S16x32x32x32x64 : S524288x64.ShapeCasts S16x32x32x32x64
  transposes_S16x32x32x32x64_S16x64x32x32x32_0_4_1_2_3 : S16x32x32x32x64.Transposes [0, 4, 1, 2, 3] S16x64x32x32x32
  scatter_S524288x64_S1048576x1_S1048576x64_1_0_0_1_wf : ScatterDims.WF S524288x64 S1048576x1 S1048576x64 [1] [0] [0] 1
  scatter_S524288_S1048576x1_S1048576_n_0_0_1_wf : ScatterDims.WF S524288 S1048576x1 S1048576 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x65536.size a ≤ S16x3x65536.size a
  hwx0_0 : ∀ i : grid0.Coords, EltTy.bits .f32 = 32 ∨ (Rect.block (s := S16x3x65536) S1x3x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x65536.size a ≤ S16x3x65536.size a
  hwx0_1 : ∀ i : grid0.Coords, EltTy.bits .f32 = 32 ∨ (Rect.block (s := S16x3x65536) S1x3x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x65536.size a ≤ S16x1x65536.size a
  hwx0_2 : ∀ i : grid0.Coords, EltTy.bits .i32 = 32 ∨ (Rect.block (s := S16x1x65536) S1x1x65536.size (cc0_transform_2 i) (hinb0_2 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S524288x64.size a
  hwx1_0 : ∀ i : grid1.Coords, EltTy.bits .f32 = 32 ∨ (Rect.block (s := S524288x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S524288.size a
  hwx1_1 : ∀ i : grid1.Coords, EltTy.bits .f32 = 32 ∨ (Rect.block (s := S524288) S8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S524288x64.size a
  hwx1_2 : ∀ i : grid1.Coords, EltTy.bits .f32 = 32 ∨ (Rect.block (s := S524288x64) S8192x64.size (cc1_transform_2 i) (hinb1_2 i)).WholeWords (EltTy.packing .f32)

variable [Facts₀]

def scatter_S524288x64_S1048576x1_S1048576x64_1_0_0_1 : ScatterDims S524288x64 S1048576x1 S1048576x64 where
  updateWindowDims := [1]
  insertedWindowDims := [0]
  scatterDimsToOperandDims := [0]
  indexVectorDim := 1
  wf := scatter_S524288x64_S1048576x1_S1048576x64_1_0_0_1_wf
def scatter_S524288_S1048576x1_S1048576_n_0_0_1 : ScatterDims S524288 S1048576x1 S1048576 where
  updateWindowDims := []
  insertedWindowDims := [0]
  scatterDimsToOperandDims := [0]
  indexVectorDim := 1
  wf := scatter_S524288_S1048576x1_S1048576_n_0_0_1_wf

abbrev win0_0 : Pipeline.Window sig grid0 :=
  Pipeline.Window.ofSpec (Memref.whole main_arg1) S1x3x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x3x65536.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x65536.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x64x65536 : Shape := ⟨3, ![16, 64, 65536]⟩
abbrev S16x3x65536 : Shape := ⟨3, ![16, 3, 65536]⟩
abbrev S_ : Shape := ⟨0, ![]⟩
abbrev S16x3 : Shape := ⟨2, ![16, 3]⟩
abbrev S16x3x1 : Shape := ⟨3, ![16, 3, 1]⟩
abbrev S16x65536 : Shape := ⟨2, ![16, 65536]⟩
abbrev S16x1x65536 : Shape := ⟨3, ![16, 1, 65536]⟩
abbrev S16x1 : Shape := ⟨2, ![16, 1]⟩
abbrev S16x1x1 : Shape := ⟨3, ![16, 1, 1]⟩
abbrev S16 : Shape := ⟨1, ![16]⟩
abbrev S1048576 : Shape := ⟨1, ![1048576]⟩
abbrev S16x65536x64 : Shape := ⟨3, ![16, 65536, 64]⟩
abbrev S1048576x64 : Shape := ⟨2, ![1048576, 64]⟩
abbrev S524288x64 : Shape := ⟨2, ![524288, 64]⟩
abbrev S1048576x1 : Shape := ⟨2, ![1048576, 1]⟩
abbrev S524288 : Shape := ⟨1, ![524288]⟩
abbrev S524288x1 : Shape := ⟨2, ![524288, 1]⟩
abbrev S16x32x32x32x64 : Shape := ⟨5, ![16, 32, 32, 32, 64]⟩
abbrev S16x64x32x32x32 : Shape := ⟨5, ![16, 64, 32, 32, 32]⟩

abbrev nBuf : Space → Nat
  | .hbm => 84
  | .vmem => 0
  | .smem => 0
  | _ => 0

abbrev bufTy : (tb : Table) → Fin (tcTables nBuf tb) → BufTy
  | .hbm, ⟨0, _⟩ => ⟨S16x64x65536, .f32⟩
  | .hbm, ⟨1, _⟩ => ⟨S16x3x65536, .f32⟩
  | .hbm, ⟨2, _⟩ => ⟨S_, .f32⟩
  | .hbm, ⟨3, _⟩ => ⟨S16x3, .f32⟩
  | .hbm, ⟨4, _⟩ => ⟨S16x3x1, .f32⟩
  | .hbm, ⟨5, _⟩ => ⟨S_, .f32⟩
  | .hbm, ⟨6, _⟩ => ⟨S16x3x1, .f32⟩
  | .hbm, ⟨7, _⟩ => ⟨S16x3x1, .f32⟩
  | .hbm, ⟨8, _⟩ => ⟨S16x3x65536, .f32⟩
  | .hbm, ⟨9, _⟩ => ⟨S16x3x65536, .f32⟩
  | .hbm, ⟨10, _⟩ => ⟨S16x3x65536, .f32⟩
  | .hbm, ⟨11, _⟩ => ⟨S_, .f32⟩
  | .hbm, ⟨12, _⟩ => ⟨S16x65536, .f32⟩
  | .hbm, ⟨13, _⟩ => ⟨S16x1x65536, .f32⟩
  | .hbm, ⟨14, _⟩ => ⟨S16x1x65536, .f32⟩
  | .hbm, ⟨15, _⟩ => ⟨S_, .f32⟩
  | .hbm, ⟨16, _⟩ => ⟨S16x1, .f32⟩
  | .hbm, ⟨17, _⟩ => ⟨S16x1x1, .f32⟩
  | .hbm, ⟨18, _⟩ => ⟨S_, .f32⟩
  | .hbm, ⟨19, _⟩ => ⟨S16x1x1, .f32⟩
  | .hbm, ⟨20, _⟩ => ⟨S16x1x1, .f32⟩
  | .hbm, ⟨21, _⟩ => ⟨S_, .f32⟩
  | .hbm, ⟨22, _⟩ => ⟨S16x1x1, .f32⟩
  | .hbm, ⟨23, _⟩ => ⟨S16x1x1, .f32⟩
  | .hbm, ⟨24, _⟩ => ⟨S16x3x65536, .f32⟩
  | .hbm, ⟨25, _⟩ => ⟨S16x3x65536, .f32⟩
  | .hbm, ⟨26, _⟩ => ⟨S_, .f32⟩
  | .hbm, ⟨27, _⟩ => ⟨S16x3x65536, .f32⟩
  | .hbm, ⟨28, _⟩ => ⟨S16x3x65536, .f32⟩
  | .hbm, ⟨29, _⟩ => ⟨S_, .f32⟩
  | .hbm, ⟨30, _⟩ => ⟨S16x3x65536, .f32⟩
  | .hbm, ⟨31, _⟩ => ⟨S16x3x65536, .f32⟩
  | .hbm, ⟨32, _⟩ => ⟨S_, .f32⟩
  | .hbm, ⟨33, _⟩ => ⟨S_, .i32⟩
  | .hbm, ⟨34, _⟩ => ⟨S_, .f32⟩
  | .hbm, ⟨35, _⟩ => ⟨S16x3x65536, .f32⟩
  | .hbm, ⟨36, _⟩ => ⟨S16x3x65536, .f32⟩
  | .hbm, ⟨37, _⟩ => ⟨S_, .f32⟩
  | .hbm, ⟨38, _⟩ => ⟨S16x3x65536, .f32⟩
  | .hbm, ⟨39, _⟩ => ⟨S16x3x65536, .f32⟩
  | .hbm, ⟨40, _⟩ => ⟨S16x3x65536, .f32⟩
  | .hbm, ⟨41, _⟩ => ⟨S16x3x65536, .i32⟩
  | .hbm, ⟨42, _⟩ => ⟨S16x1x65536, .i32⟩
  | .hbm, ⟨43, _⟩ => ⟨S16x65536, .i32⟩
  | .hbm, ⟨44, _⟩ => ⟨S_, .i32⟩
  | .hbm, ⟨45, _⟩ => ⟨S16x65536, .i32⟩
  | .hbm, ⟨46, _⟩ => ⟨S16x65536, .i32⟩
  | .hbm, ⟨47, _⟩ => ⟨S16x1x65536, .i32⟩
  | .hbm, ⟨48, _⟩ => ⟨S16x65536, .i32⟩
  | .hbm, ⟨49, _⟩ => ⟨S16x65536, .i32⟩
  | .hbm, ⟨50, _⟩ => ⟨S_, .i32⟩
  | .hbm, ⟨51, _⟩ => ⟨S16x65536, .i32⟩
  | .hbm, ⟨52, _⟩ => ⟨S16x65536, .i32⟩
  | .hbm, ⟨53, _⟩ => ⟨S16x1x65536, .i32⟩
  | .hbm, ⟨54, _⟩ => ⟨S16x65536, .i32⟩
  | .hbm, ⟨55, _⟩ => ⟨S16x65536, .i32⟩
  | .hbm, ⟨56, _⟩ => ⟨S16, .i32⟩
  | .hbm, ⟨57, _⟩ => ⟨S16x1, .i32⟩
  | .hbm, ⟨58, _⟩ => ⟨S_, .i32⟩
  | .hbm, ⟨59, _⟩ => ⟨S16x1, .i32⟩
  | .hbm, ⟨60, _⟩ => ⟨S16x1, .i32⟩
  | .hbm, ⟨61, _⟩ => ⟨S16x65536, .i32⟩
  | .hbm, ⟨62, _⟩ => ⟨S16x65536, .i32⟩
  | .hbm, ⟨63, _⟩ => ⟨S1048576, .i32⟩
  | .hbm, ⟨64, _⟩ => ⟨S16x65536x64, .f32⟩
  | .hbm, ⟨65, _⟩ => ⟨S1048576x64, .f32⟩
  | .hbm, ⟨66, _⟩ => ⟨S_, .f32⟩
  | .hbm, ⟨67, _⟩ => ⟨S524288x64, .f32⟩
  | .hbm, ⟨68, _⟩ => ⟨S1048576x1, .i32⟩
  | .hbm, ⟨69, _⟩ => ⟨S524288x64, .f32⟩
  | .hbm, ⟨70, _⟩ => ⟨S_, .f32⟩
  | .hbm, ⟨71, _⟩ => ⟨S1048576, .f32⟩
  | .hbm, ⟨72, _⟩ => ⟨S_, .f32⟩
  | .hbm, ⟨73, _⟩ => ⟨S524288, .f32⟩
  | .hbm, ⟨74, _⟩ => ⟨S1048576x1, .i32⟩
  | .hbm, ⟨75, _⟩ => ⟨S524288, .f32⟩
  | .hbm, ⟨76, _⟩ => ⟨S_, .f32⟩
  | .hbm, ⟨77, _⟩ => ⟨S524288, .f32⟩
  | .hbm, ⟨78, _⟩ => ⟨S524288, .f32⟩
  | .hbm, ⟨79, _⟩ => ⟨S524288x1, .f32⟩
  | .hbm, ⟨80, _⟩ => ⟨S524288x64, .f32⟩
  | .hbm, ⟨81, _⟩ => ⟨S524288x64, .f32⟩
  | .hbm, ⟨82, _⟩ => ⟨S16x32x32x32x64, .f32⟩
  | .hbm, ⟨83, _⟩ => ⟨S16x64x32x32x32, .f32⟩
  | _, _ => ⟨S16x64x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_c : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_8 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_10 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩

abbrev nD : Nat := 1
abbrev τ : Topo := Topo.v7x

variable {F : FTy → Type} [FloatOps F]

class Facts₀ : Prop where
  reducesTo_S16x3x65536_S16x3_d2 : S16x3x65536.ReducesTo [2] S16x3
  h_S_ : 0 < S_.numel
  bcast_S16x3_S16x3x1_0_1 : S16x3.BroadcastsInDim S16x3x1 (![0, 1] : Fin 2 → Fin S16x3x1.rank)
  bcast_S_S16x3x1 : S_.BroadcastsInDim S16x3x1 (![] : Fin 0 → Fin S16x3x1.rank)
  bcast_S16x3x1_S16x3x65536_0_1_2 : S16x3x1.BroadcastsInDim S16x3x65536 (![0, 1, 2] : Fin 3 → Fin S16x3x65536.rank)
  reducesTo_S16x3x65536_S16x65536_d1 : S16x3x65536.ReducesTo [1] S16x65536
  bcast_S16x65536_S16x1x65536_0_2 : S16x65536.BroadcastsInDim S16x1x65536 (![0, 2] : Fin 2 → Fin S16x1x65536.rank)
  reducesTo_S16x1x65536_S16x1_d2 : S16x1x65536.ReducesTo [2] S16x1
  bcast_S16x1_S16x1x1_0_1 : S16x1.BroadcastsInDim S16x1x1 (![0, 1] : Fin 2 → Fin S16x1x1.rank)
  bcast_S_S16x1x1 : S_.BroadcastsInDim S16x1x1 (![] : Fin 0 → Fin S16x1x1.rank)
  bcast_S16x1x1_S16x3x65536_0_1_2 : S16x1x1.BroadcastsInDim S16x3x65536 (![0, 1, 2] : Fin 3 → Fin S16x3x65536.rank)
  bcast_S_S16x3x65536 : S_.BroadcastsInDim S16x3x65536 (![] : Fin 0 → Fin S16x3x65536.rank)
  slices_S16x3x65536_S16x1x65536_0_0_0 : S16x3x65536.Slices ![0, 0, 0] S16x1x65536
  shapeCasts_S16x1x65536_S16x65536 : S16x1x65536.ShapeCasts S16x65536
  bcast_S_S16x65536 : S_.BroadcastsInDim S16x65536 (![] : Fin 0 → Fin S16x65536.rank)
  slices_S16x3x65536_S16x1x65536_0_1_0 : S16x3x65536.Slices ![0, 1, 0] S16x1x65536
  slices_S16x3x65536_S16x1x65536_0_2_0 : S16x3x65536.Slices ![0, 2, 0] S16x1x65536
  bcast_S16_S16x1_0 : S16.BroadcastsInDim S16x1 (![0] : Fin 1 → Fin S16x1.rank)
  bcast_S_S16x1 : S_.BroadcastsInDim S16x1 (![] : Fin 0 → Fin S16x1.rank)
  bcast_S16x1_S16x65536_0_1 : S16x1.BroadcastsInDim S16x65536 (![0, 1] : Fin 2 → Fin S16x65536.rank)
  shapeCasts_S16x65536_S1048576 : S16x65536.ShapeCasts S1048576
  transposes_S16x64x65536_S16x65536x64_0_2_1 : S16x64x65536.Transposes [0, 2, 1] S16x65536x64
  shapeCasts_S16x65536x64_S1048576x64 : S16x65536x64.ShapeCasts S1048576x64
  bcast_S_S524288x64 : S_.BroadcastsInDim S524288x64 (![] : Fin 0 → Fin S524288x64.rank)
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S_S524288 : S_.BroadcastsInDim S524288 (![] : Fin 0 → Fin S524288.rank)
  bcast_S524288_S524288x1_0 : S524288.BroadcastsInDim S524288x1 (![0] : Fin 1 → Fin S524288x1.rank)
  bcast_S524288x1_S524288x64_0_1 : S524288x1.BroadcastsInDim S524288x64 (![0, 1] : Fin 2 → Fin S524288x64.rank)
  shapeCasts_S524288x64_S16x32x32x32x64 : S524288x64.ShapeCasts S16x32x32x32x64
  transposes_S16x32x32x32x64_S16x64x32x32x32_0_4_1_2_3 : S16x32x32x32x64.Transposes [0, 4, 1, 2, 3] S16x64x32x32x32
  scatter_S524288x64_S1048576x1_S1048576x64_1_0_0_1_wf : ScatterDims.WF S524288x64 S1048576x1 S1048576x64 [1] [0] [0] 1
  scatter_S524288_S1048576x1_S1048576_n_0_0_1_wf : ScatterDims.WF S524288 S1048576x1 S1048576 [] [0] [0] 1

variable [Facts₀]

def scatter_S524288x64_S1048576x1_S1048576x64_1_0_0_1 : ScatterDims S524288x64 S1048576x1 S1048576x64 where
  updateWindowDims := [1]
  insertedWindowDims := [0]
  scatterDimsToOperandDims := [0]
  indexVectorDim := 1
  wf := scatter_S524288x64_S1048576x1_S1048576x64_1_0_0_1_wf
def scatter_S524288_S1048576x1_S1048576_n_0_0_1 : ScatterDims S524288 S1048576x1 S1048576 where
  updateWindowDims := []
  insertedWindowDims := [0]
  scatterDimsToOperandDims := [0]
  indexVectorDim := 1
  wf := scatter_S524288_S1048576x1_S1048576_n_0_0_1_wf

class Facts : Prop extends Facts₀ where

variable [Facts]
-- ==== Proof.Spec.lean ====
/-
  The mathematics both programs compute, stated once over the extended reals with no program in sight.

  A point cloud is three coordinate rows of 65536 points. Each row is centred at its mean; a point's norm is the
  square root of the sum of its three squared centred coordinates; the cloud's radius is the largest norm. A centred
  coordinate is divided by twice the radius, shifted by one half, scaled by 32 and clipped to [0, 31]: the normalised
  coordinate `nc`. Rounding it to the nearest even integer gives the voxel coordinate, and the three voxel
  coordinates of a point, read in base 32 and offset by 32768 times the cloud's number, give the point's cell.

  The second half of the computation divides a row of per-cell feature sums by the cell's count, or by one where the
  count is smaller: `avg`.

  `NC`, `IDX`, `FLAT` are these functions laid over the arrays of sixteen clouds: the normalised coordinates as a
  [16, 3, 65536] array, the cells as a [16, 1, 65536] array and as the flat list of 1048576 points.
-/
import Idealize.ShloMosaic.PureOps.Ideal
import Idealize.ShloMosaic.PureOps.Ideal.Laws
import Idealize.ShloMosaic.Lib.ValueIdx

noncomputable section

open scoped BigOperators

namespace Cert.Vox

open Idealize.ShloMosaic Idealize.ShloMosaic.ValueIdx

/-- One cloud: coordinate `k` of point `n`. -/
abbrev Cloud := Fin 3 → Fin 65536 → EReal

/-- The mean of coordinate row `k`: its sum over the 65536 points, divided by 65536. -/
def mean (r : Cloud) (k : Fin 3) : EReal :=
  Ideal.div (∑ n : Fin 65536, r k n) (Ideal.ofBits .f32 0x47800000#32)

/-- A coordinate centred at its row's mean. -/
def cen (r : Cloud) (k : Fin 3) (n : Fin 65536) : EReal := r k n - mean r k

/-- The Euclidean norm of centred point `n`. -/
def nrm (r : Cloud) (n : Fin 65536) : EReal := Ideal.sqrt (∑ k : Fin 3, cen r k n * cen r k n)

/-- The cloud's radius: the largest norm, a maximum taken from minus infinity. -/
def rad (r : Cloud) : EReal :=
  (Finset.univ : Finset (Fin 65536)).fold max (Ideal.ofBits .f32 0xFF800000#32) (nrm r)

/-- The normalised coordinate: centred, divided by twice the radius (plus a zero epsilon), shifted by 1/2, scaled by
    32, clipped below at 0 and above at 31. -/
def nc (r : Cloud) (k : Fin 3) (n : Fin 65536) : EReal :=
  min (Ideal.ofBits .f32 0x41F80000#32)
    (max (Ideal.ofBits .f32 0x00000000#32)
      ((Ideal.div (cen r k n) (rad r * Ideal.ofBits .f32 0x40000000#32 + Ideal.ofBits .f32 0x00000000#32)
          + Ideal.ofBits .f32 0x3F000000#32) * Ideal.ofBits .f32 0x42000000#32))

/-- The voxel coordinate: the normalised coordinate rounded half to even, as a 32-bit integer. -/
def vox (r : Cloud) (k : Fin 3) (n : Fin 65536) : BitVec 32 :=
  Ideal.fptosi 32 (Ideal.liftRound Ideal.roundHalfEven (nc r k n))

/-- The cell of point `n`: its three voxel coordinates in base 32, offset by 32768 times the cloud's number `b`. -/
def cell (r : Cloud) (b : BitVec 32) (n : Fin 65536) : BitVec 32 :=
  IntOp.addi
    (IntOp.addi (IntOp.muli (IntOp.addi (IntOp.muli (vox r 0 n) 32#32) (vox r 1 n)) 32#32) (vox r 2 n))
    (IntOp.muli b 32768#32)

/-- The upper clip bound: the float pattern of 31.0 and the integer 31 converted to a float denote one number. -/
theorem ofBits_31 : Ideal.ofBits .f32 0x41F80000#32 = (((31#32 : BitVec 32).toInt : ℝ) : EReal) := by
  have h : (31#32 : BitVec 32).toInt = 31 := by decide
  rw [h]
  simp [Ideal.ofBits, Ideal.ieee, -EReal.coe_mul]; norm_num

/-! ## Over the arrays of sixteen clouds -/

/-- Cloud `b` of a [16, 3, 65536] array. -/
def cloud (x : (⟨3, ![16, 3, 65536]⟩ : Shape).Idx → EReal) (b : Fin 16) : Cloud := fun k n => x (ix3 b k n)

/-- The normalised coordinates of all sixteen clouds. -/
def NC (x : (⟨3, ![16, 3, 65536]⟩ : Shape).Idx → EReal) : (⟨3, ![16, 3, 65536]⟩ : Shape).Idx → EReal :=
  fun i => nc (cloud x ⟨(i 0).val, (i 0).isLt⟩) ⟨(i 1).val, (i 1).isLt⟩ ⟨(i 2).val, (i 2).isLt⟩

theorem NC_ix3 (x : (⟨3, ![16, 3, 65536]⟩ : Shape).Idx → EReal) (b : Fin 16) (k : Fin 3) (n : Fin 65536) :
    NC x (ix3 b k n) = nc (cloud x b) k n := rfl

/-- The cells of all points, one row per cloud. -/
def IDX (x : (⟨3, ![16, 3, 65536]⟩ : Shape).Idx → EReal) : (⟨3, ![16, 1, 65536]⟩ : Shape).Idx → BitVec 32 :=
  fun i => cell (cloud x ⟨(i 0).val, (i 0).isLt⟩) (BitVec.ofNat 32 (i 0).val) ⟨(i 2).val, (i 2).isLt⟩

theorem IDX_ix3 (x : (⟨3, ![16, 3, 65536]⟩ : Shape).Idx → EReal) (b : Fin 16) (z : Fin 1) (n : Fin 65536) :
    IDX x (ix3 b z n) = cell (cloud x b) (BitVec.ofNat 32 b.val) n := rfl

/-- The cells of all points as one flat list: point `p` is point `p % 65536` of cloud `p / 65536`. -/
def FLAT (x : (⟨3, ![16, 3, 65536]⟩ : Shape).Idx → EReal) : (⟨1, ![1048576]⟩ : Shape).Idx → BitVec 32 :=
  fun i => cell (cloud x ⟨(i 0).val / 65536, by have h : (i 0).val < 1048576 := (i 0).isLt; omega⟩) (BitVec.ofNat 32 ((i 0).val / 65536))
    ⟨(i 0).val % 65536, Nat.mod_lt _ (by decide)⟩

/-- A cell's feature sums divided by its count, or by one where the count is smaller. -/
def avg (s : (⟨2, ![524288, 64]⟩ : Shape).Idx → EReal) (c : (⟨1, ![524288]⟩ : Shape).Idx → EReal) :
    (⟨2, ![524288, 64]⟩ : Shape).Idx → EReal :=
  fun i => Ideal.div (s i) (max (c (ix1 ⟨(i 0).val, (i 0).isLt⟩)) (Ideal.ofBits .f32 0x3F800000#32))

theorem avg_ix2 (s : (⟨2, ![524288, 64]⟩ : Shape).Idx → EReal) (c : (⟨1, ![524288]⟩ : Shape).Idx → EReal)
    (r : Fin 524288) (ch : Fin 64) :
    avg s c (ix2 r ch) = Ideal.div (s (ix2 r ch)) (max (c (ix1 r)) (Ideal.ofBits .f32 0x3F800000#32)) := rfl

end Cert.Vox

end
-- ==== Proof.PayA.lean ====
/-
  The first kernel's body, read one element at a time at the extended reals: on the cloud a staged [1, 3, 65536]
  block holds, what it stores in the coordinate window is the normalised coordinate, and what it stores in the index
  window is the point's cell at the grid position's word.
-/
import proofs.«138395_j15436112462068_1_alg».proof.Proof.Gen.KernelIdeal.Skeleton
import proofs.«138395_j15436112462068_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayA

open Idealize.ShloMosaic Idealize.ShloMosaic.TcCoe Idealize.ShloMosaic.ValueIdx Idealize.SL.Sem Cert.KernelIdeal Cert.KernelIdeal.Gen

/-- The cloud a staged block holds: its one leading coordinate is 0. -/
def blockCloud (xb : Vec Ideal S1x3x65536 .f32) : Vox.Cloud := fun k n => xb (ix3 0 k n)

/-! ## The block as three rows -/

/-- The block with its unit axis dropped: row `k`, point `n`. -/
def rows (xb : Vec Ideal S1x3x65536 .f32) : FVec Ideal S3x65536 .f32 :=
  shapeCast S3x65536 xb shapeCasts_S1x3x65536_S3x65536

theorem rows_apply (xb : Vec Ideal S1x3x65536 .f32) (k : Fin 3) (n : Fin 65536) :
    rows xb (ix2 k n) = blockCloud xb k n := by
  refine (shapeCast_apply xb _ (ix2 k n) (ix3 0 k n) ?_).trans rfl
  rw [Shape.rowMajor_val_three, Shape.rowMajor_val_two]
  show (0 * 3 + k.val) * 65536 + n.val = k.val * 65536 + n.val
  omega

/-- The row means as a [3, 1] column: each row's sum over its points, divided by 65536. -/
def meanCol (xb : Vec Ideal S1x3x65536 .f32) : FVec Ideal S3x1 .f32 :=
  divf (shapeCast S3x1 (multiReduction (F := Ideal) .add [1] S3 (rows xb) 0x00000000#32 reduces_S3x65536_S3 (.inl rfl) rfl)
      shapeCasts_S3_S3x1)
    (broadcast S3x1 (Scalar.ofBits (F := Ideal) .f32 0x47800000#32))

theorem meanCol_apply (xb : Vec Ideal S1x3x65536 .f32) (k : Fin 3) (z : Fin 1) :
    meanCol xb (ix2 k z) = Vox.mean (blockCloud xb) k := by
  unfold meanCol Vox.mean
  refine (divf_apply _ _ _).trans ?_
  refine congrArg (fun t => Ideal.div t (Ideal.ofBits .f32 0x47800000#32)) ?_
  refine (shapeCast_apply _ shapeCasts_S3_S3x1 (ix2 k z) (ix1 k) ?_).trans ?_
  · rw [Shape.rowMajor_val_one, Shape.rowMajor_val_two]
    have hz : z.val = 0 := by omega
    show k.val = k.val * 1 + z.val
    omega
  refine (Ideal.multiReduction_add_single _ _ reduces_S3x65536_S3 _ _ (ix1 k)).trans ?_
  refine Finset.sum_congr rfl fun (n : Fin 65536) _ => ?_
  have e : reduces_S3x65536_S3.lift (ix1 k) n = ix2 k n := by
    funext a
    match a with
    | ⟨0, _⟩ => exact Fin.ext rfl
    | ⟨1, _⟩ => exact Fin.ext rfl
  rw [e]
  exact rows_apply xb k n

/-- The centred block: each row less its mean. -/
def cenV (xb : Vec Ideal S1x3x65536 .f32) : FVec Ideal S3x65536 .f32 :=
  subf (rows xb) (broadcastTo S3x65536 (meanCol xb) broadcasts_S3x1_S3x65536)

theorem cenV_apply (xb : Vec Ideal S1x3x65536 .f32) (k : Fin 3) (n : Fin 65536) :
    cenV xb (ix2 k n) = Vox.cen (blockCloud xb) k n := by
  unfold cenV Vox.cen
  refine (subf_apply _ _ _).trans ?_
  have e : broadcastTo S3x65536 (meanCol xb) broadcasts_S3x1_S3x65536 (ix2 k n) = meanCol xb (ix2 k 0) :=
    broadcastTo_apply _ _ _ _ fun a => match a with | ⟨0, _⟩ => rfl | ⟨1, _⟩ => rfl
  rw [e, meanCol_apply, rows_apply]

/-- A root at an index is the root of the element. -/
theorem sqrt_at {s : Shape} (x : FVec Ideal s .f32) (i : s.Idx) : sqrt x i = Ideal.sqrt (x i) := rfl

/-- The body's last stages, pointwise in the centred value `c` and the divisor `d`. -/
theorem tail_at {s : Shape} (c d : FVec Ideal s .f32) (i : s.Idx) :
    minimumf (broadcast s (Scalar.ofBits (F := Ideal) .f32 0x41F80000#32))
        (maximumf (broadcast s (Scalar.ofBits (F := Ideal) .f32 0x00000000#32))
          (mulf (addf (divf c d) (broadcast s (Scalar.ofBits (F := Ideal) .f32 0x3F000000#32)))
            (broadcast s (Scalar.ofBits (F := Ideal) .f32 0x42000000#32)))) i
      = min (Ideal.ofBits .f32 0x41F80000#32)
          (max (Ideal.ofBits .f32 0x00000000#32)
            ((Ideal.div (c i) (d i) + Ideal.ofBits .f32 0x3F000000#32) * Ideal.ofBits .f32 0x42000000#32)) := rfl

/-- The points' norms as a [1, 65536] row: the root of the sum over the three rows of the squared centred coordinate. -/
def nrmRow (xb : Vec Ideal S1x3x65536 .f32) : FVec Ideal S1x65536 .f32 :=
  sqrt (shapeCast S1x65536
    (multiReduction (F := Ideal) .add [0] S65536 (mulf (cenV xb) (cenV xb)) 0x00000000#32 reduces_S3x65536_S65536 (.inl rfl) rfl)
    shapeCasts_S65536_S1x65536)

theorem nrmRow_apply (xb : Vec Ideal S1x3x65536 .f32) (z : Fin 1) (n : Fin 65536) :
    nrmRow xb (ix2 z n) = Vox.nrm (blockCloud xb) n := by
  unfold nrmRow Vox.nrm
  refine (sqrt_at _ _).trans ?_
  refine congrArg Ideal.sqrt ?_
  refine (shapeCast_apply _ shapeCasts_S65536_S1x65536 (ix2 z n) (ix1 n) ?_).trans ?_
  · rw [Shape.rowMajor_val_one, Shape.rowMajor_val_two]
    have hz : z.val = 0 := by omega
    show n.val = z.val * 65536 + n.val
    omega
  refine (Ideal.multiReduction_add_single _ _ reduces_S3x65536_S65536 _ _ (ix1 n)).trans ?_
  refine Finset.sum_congr rfl fun (k : Fin 3) _ => ?_
  have e : reduces_S3x65536_S65536.lift (ix1 n) k = ix2 k n := by
    funext a
    match a with
    | ⟨0, _⟩ => exact Fin.ext rfl
    | ⟨1, _⟩ => exact Fin.ext rfl
  rw [e]
  refine (mulf_apply _ _ _).trans ?_
  rw [cenV_apply]

/-- Twice the largest norm, plus the zero epsilon, as a [1, 1] cell. -/
def denCell (xb : Vec Ideal S1x3x65536 .f32) : FVec Ideal S1x1 .f32 :=
  addf (mulf (shapeCast S1x1
        (multiReduction (F := Ideal) .maximumf [1] S1 (nrmRow xb) 0xFF800000#32 reduces_S1x65536_S1 (.inl rfl) rfl)
        shapeCasts_S1_S1x1)
      (broadcast S1x1 (Scalar.ofBits (F := Ideal) .f32 0x40000000#32)))
    (broadcast S1x1 (Scalar.ofBits (F := Ideal) .f32 0x00000000#32))

theorem denCell_apply (xb : Vec Ideal S1x3x65536 .f32) (z z' : Fin 1) :
    denCell xb (ix2 z z')
      = Vox.rad (blockCloud xb) * Ideal.ofBits .f32 0x40000000#32 + Ideal.ofBits .f32 0x00000000#32 := by
  unfold denCell Vox.rad
  refine (addf_apply _ _ _).trans ?_
  refine congrArg (fun t => t + Ideal.ofBits .f32 0x00000000#32) ?_
  refine (mulf_apply _ _ _).trans ?_
  refine congrArg (fun t => t * Ideal.ofBits .f32 0x40000000#32) ?_
  refine (shapeCast_apply _ shapeCasts_S1_S1x1 (ix2 z z') (ix1 0) ?_).trans ?_
  · rw [Shape.rowMajor_val_one, Shape.rowMajor_val_two]
    have hz : z.val = 0 := by omega
    have hz' : z'.val = 0 := by omega
    show 0 = z.val * 1 + z'.val
    omega
  refine (Ideal.multiReduction_maximumf_single _ _ reduces_S1x65536_S1 _ _ (ix1 0)).trans ?_
  refine congrArg (fun f => Finset.fold max (Ideal.ofBits .f32 0xFF800000#32) f (Finset.univ : Finset (Fin 65536))) ?_
  funext n
  have e : reduces_S1x65536_S1.lift (ix1 0) n = ix2 0 n := by
    funext a
    match a with
    | ⟨0, _⟩ => exact Fin.ext rfl
    | ⟨1, _⟩ => exact Fin.ext rfl
  show nrmRow xb (reduces_S1x65536_S1.lift (ix1 0) n) = _
  rw [e]
  exact nrmRow_apply xb 0 n

theorem pay2_apply (xb : Vec Ideal S1x3x65536 .f32) (k : Fin 3) (n : Fin 65536) :
    k0_pay2 (F := Ideal) xb (ix2 k n) = Vox.nc (blockCloud xb) k n := by
  have e : broadcastTo S3x65536 (denCell xb) broadcasts_S1x1_S3x65536 (ix2 k n) = denCell xb (ix2 0 0) :=
    broadcastTo_apply _ _ _ _ fun a => match a with | ⟨0, _⟩ => rfl | ⟨1, _⟩ => rfl
  unfold Vox.nc
  refine (tail_at (cenV xb) (broadcastTo S3x65536 (denCell xb) broadcasts_S1x1_S3x65536) (ix2 k n)).trans ?_
  rw [e, denCell_apply, cenV_apply]

theorem pay3_apply (xb : Vec Ideal S1x3x65536 .f32) (z : Fin 1) (k : Fin 3) (n : Fin 65536) :
    k0_pay3 (F := Ideal) xb (ix3 z k n) = Vox.nc (blockCloud xb) k n := by
  unfold k0_pay3
  refine (shapeCast_apply _ shapeCasts_S3x65536_S1x3x65536 (ix3 z k n) (ix2 k n) ?_).trans (pay2_apply xb k n)
  rw [Shape.rowMajor_val_three, Shape.rowMajor_val_two]
  have hz : z.val = 0 := by omega
  show k.val * 65536 + n.val = (z.val * 3 + k.val) * 65536 + n.val
  rw [hz]
  omega

/-! ## The cell index -/

/-- Rounding to even and then converting to an integer, at an index, is the two scalar operations on the element. -/
theorem vox_at {s : Shape} (x : FVec Ideal s .f32) (i : s.Idx) :
    fptosi 32 (roundeven x) i = Ideal.fptosi 32 (Ideal.liftRound Ideal.roundHalfEven (x i)) := rfl

theorem pay4_apply (xb : Vec Ideal S1x3x65536 .f32) (k : Fin 3) (n : Fin 65536) :
    k0_pay4 (F := Ideal) xb (ix2 k n) = Vox.vox (blockCloud xb) k n := by
  unfold k0_pay4 Vox.vox
  refine (vox_at _ _).trans ?_
  rw [pay2_apply]

/-- The three one-row slices of the voxel coordinates read row 0, 1 and 2. -/
theorem slice0_apply (v : IVec S3x65536 32) (z : Fin 1) (n : Fin 65536) :
    extractStridedSlice S1x65536 ![0, 0] v slices_S3x65536_o0_0_S1x65536 (ix2 z n) = v (ix2 0 n) := by
  have hz : z.val = 0 := by omega
  refine extractStridedSlice_apply _ v _ (ix2 z n) (ix2 0 n) fun a => ?_
  match a with
  | ⟨0, _⟩ => show 0 = 0 + z.val; omega
  | ⟨1, _⟩ => show n.val = 0 + n.val; omega

theorem slice1_apply (v : IVec S3x65536 32) (z : Fin 1) (n : Fin 65536) :
    extractStridedSlice S1x65536 ![1, 0] v slices_S3x65536_o1_0_S1x65536 (ix2 z n) = v (ix2 1 n) := by
  have hz : z.val = 0 := by omega
  refine extractStridedSlice_apply _ v _ (ix2 z n) (ix2 1 n) fun a => ?_
  match a with
  | ⟨0, _⟩ => show 1 = 1 + z.val; omega
  | ⟨1, _⟩ => show n.val = 0 + n.val; omega

theorem slice2_apply (v : IVec S3x65536 32) (z : Fin 1) (n : Fin 65536) :
    extractStridedSlice S1x65536 ![2, 0] v slices_S3x65536_o2_0_S1x65536 (ix2 z n) = v (ix2 2 n) := by
  have hz : z.val = 0 := by omega
  refine extractStridedSlice_apply _ v _ (ix2 z n) (ix2 2 n) fun a => ?_
  match a with
  | ⟨0, _⟩ => show 2 = 2 + z.val; omega
  | ⟨1, _⟩ => show n.val = 0 + n.val; omega

/-- Integer products and sums at an index. -/
theorem muli_at {s : Shape} (x y : IVec s 32) (i : s.Idx) : muli x y i = IntOp.muli (x i) (y i) := rfl
theorem addi_at {s : Shape} (x y : IVec s 32) (i : s.Idx) : addi x y i = IntOp.addi (x i) (y i) := rfl

theorem pay5_apply (xb : Vec Ideal S1x3x65536 .f32) (z : Fin 1) (n : Fin 65536) :
    k0_pay5 (F := Ideal) xb (ix2 z n)
      = IntOp.muli (IntOp.addi (IntOp.muli (Vox.vox (blockCloud xb) 0 n) 32#32) (Vox.vox (blockCloud xb) 1 n)) 32#32 := by
  unfold k0_pay5
  refine (muli_at _ _ _).trans ?_
  refine congrArg (fun t => IntOp.muli t 32#32) ?_
  refine (addi_at _ _ _).trans ?_
  rw [slice1_apply, pay4_apply]
  refine congrArg (fun t => IntOp.addi t (Vox.vox (blockCloud xb) 1 n)) ?_
  refine (muli_at _ _ _).trans ?_
  rw [slice0_apply, pay4_apply]
  rfl

theorem pay1_apply (a : BitVec 32) (xb : Vec Ideal S1x3x65536 .f32) (z z' : Fin 1) (n : Fin 65536) :
    k0_pay1 a (k0_pay4 (F := Ideal) xb) (k0_pay5 (F := Ideal) xb) (ix3 z z' n) = Vox.cell (blockCloud xb) a n := by
  unfold k0_pay1 Vox.cell
  refine (shapeCast_apply _ shapeCasts_S1x65536_S1x1x65536 (ix3 z z' n) (ix2 0 n) ?_).trans ?_
  · rw [Shape.rowMajor_val_three, Shape.rowMajor_val_two]
    have hz : z.val = 0 := by omega
    have hz' : z'.val = 0 := by omega
    show 0 * 65536 + n.val = (z.val * 1 + z'.val) * 65536 + n.val
    rw [hz, hz']
  refine (addi_at _ _ _).trans ?_
  refine congrArg (fun t => IntOp.addi t (IntOp.muli a 32768#32)) ?_
  refine (addi_at _ _ _).trans ?_
  rw [slice2_apply, pay4_apply, pay5_apply]

end Cert.KernelIdeal.PayA

end
-- ==== Proof.Region0.lean ====
/-
  The first region, from blocks to arrays: grid point b stages cloud b whole, so what it writes back to the
  coordinate array is cloud b's normalised coordinates and to the index array cloud b's cells; the sixteen blocks
  tile each array, which therefore ends at the specification's array.
-/
import proofs.«138395_j15436112462068_1_alg».proof.Proof.FrameKernelIdeal
import proofs.«138395_j15436112462068_1_alg».proof.Proof.Spec
import proofs.«138395_j15436112462068_1_alg».proof.Proof.PayA
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.TcCoe Idealize.ShloMosaic.ValueIdx Idealize.SL.Sem Cert.KernelIdeal Cert.KernelIdeal.Gen Cert.KernelIdeal.GenP Idealize.ShloMosaic.Pipeline

variable (V : (c : Dev nD) → (b : Ref sig .tc) → Buf (Elt Ideal) ((c : Thread nD τ).loc b))

/-- A staged block starts at offset zero on each of its three axes. -/
theorem off_zero : (![0, 0, 0] : Fin 3 → Nat) = fun _ => 0 := funext fun a => by fin_cases a <;> rfl

/-- The index maps, decided once over the sixteen grid points: point `t` has grid coordinate `t`, and each of the
    three windows puts its block at block index `(t, 0, 0)`. -/
theorem idx_facts : ∀ t : Fin cfg0.N, ((grid0.coords t) 0).val = t.val
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The number of a grid point is a cloud's number. -/
abbrev cloudOf (t : Fin cfg0.N) : Fin 16 := ⟨t.val, t.isLt⟩

/-- Where block `t` of the coordinate input sits in its array: element `(z, k, n)` of the block is element `(t, k, n)`
    of the array (block index times block extent plus the inner coordinate, axis by axis). -/
theorem emb0 (t : Fin cfg0.N) (z : Fin 1) (k : Fin 3) (n : Fin 65536) :
    ((cfg0.win 0).blk t).view.emb (ix3 z k n) = (ix3 (cloudOf t) k n : (⟨3, ![16, 3, 65536]⟩ : Shape).Idx) := by
  obtain ⟨eg, a0, a1, a2, b0, b1, b2, d0, d1, d2⟩ := idx_facts t
  funext a; apply Fin.ext
  match a with
  | ⟨0, _⟩ => show win0_0.index t (0 : Fin 3) * 1 + 1 * z.val = t.val; have := z.isLt; omega
  | ⟨1, _⟩ => show win0_0.index t (1 : Fin 3) * 3 + 1 * k.val = k.val; omega
  | ⟨2, _⟩ => show win0_0.index t (2 : Fin 3) * 65536 + 1 * n.val = n.val; omega

/-- The same for the coordinate output's blocks. -/
theorem emb1 (t : Fin cfg0.N) (z : Fin 1) (k : Fin 3) (n : Fin 65536) :
    ((cfg0.win 1).blk t).view.emb (ix3 z k n) = (ix3 (cloudOf t) k n : (⟨3, ![16, 3, 65536]⟩ : Shape).Idx) := by
  obtain ⟨eg, a0, a1, a2, b0, b1, b2, d0, d1, d2⟩ := idx_facts t
  funext a; apply Fin.ext
  match a with
  | ⟨0, _⟩ => show win0_1.index t (0 : Fin 3) * 1 + 1 * z.val = t.val; have := z.isLt; omega
  | ⟨1, _⟩ => show win0_1.index t (1 : Fin 3) * 3 + 1 * k.val = k.val; omega
  | ⟨2, _⟩ => show win0_1.index t (2 : Fin 3) * 65536 + 1 * n.val = n.val; omega

/-- And for the index output's blocks, of one row each. -/
theorem emb2 (t : Fin cfg0.N) (z z' : Fin 1) (n : Fin 65536) :
    ((cfg0.win 2).blk t).view.emb (ix3 z z' n) = (ix3 (cloudOf t) z' n : (⟨3, ![16, 1, 65536]⟩ : Shape).Idx) := by
  obtain ⟨eg, a0, a1, a2, b0, b1, b2, d0, d1, d2⟩ := idx_facts t
  funext a; apply Fin.ext
  match a with
  | ⟨0, _⟩ => show win0_2.index t (0 : Fin 3) * 1 + 1 * z.val = t.val; have := z.isLt; omega
  | ⟨1, _⟩ => show win0_2.index t (1 : Fin 3) * 1 + 1 * z'.val = z'.val; omega
  | ⟨2, _⟩ => show win0_2.index t (2 : Fin 3) * 65536 + 1 * n.val = n.val; omega

/-- The block grid point `t` stages is cloud `t` of the coordinate array. -/
theorem blockCloud_iblk (c : Dev nD) (t : Fin cfg0.N) :
    PayA.blockCloud (iblk0 V c 0 t) = Vox.cloud (V c main_arg1) (cloudOf t) := by
  funext k n
  show V c main_arg1 (((cfg0.win 0).blk t).view.emb (ix3 0 k n)) = V c main_arg1 (ix3 (cloudOf t) k n)
  exact congrArg (V c main_arg1) (emb0 t 0 k n)

/-- What grid point `t` writes back to the coordinate array is block `t` of the normalised coordinates. -/
theorem flushed1_eq (c : Dev nD) (t : Fin cfg0.N) :
    (dat0 (F := Ideal) V c).flushed 1 t = ((cfg0.win 1).blk t).view.read (Elt Ideal) (Vox.NC (V c main_arg1)) := by
  show (cfg0.win 1).cut (grid0.coords t) ((dat0 V c).after 1 t) = _
  rw [after0_1]
  unfold out0_1
  rw [View.canon_unit_zero off_zero]
  simp only [View.ld_unit_zero (S := S1x3x65536) off_zero]
  funext j
  obtain ⟨z, k, n, rfl⟩ : ∃ z k n, j = ix3 z k n := ⟨j 0, j 1, j 2, eq_ix3 j⟩
  refine (PayA.pay3_apply _ z k n).trans ?_
  show _ = Vox.NC (V c main_arg1) (((cfg0.win 1).blk t).view.emb (ix3 z k n))
  rw [emb1 t z k n, Vox.NC_ix3]
  exact congrArg (fun r => Vox.nc r k n) (blockCloud_iblk V c t)

/-- What grid point `t` writes back to the index array is block `t` of the cells. -/
theorem flushed2_eq (c : Dev nD) (t : Fin cfg0.N) :
    (dat0 (F := Ideal) V c).flushed 2 t = ((cfg0.win 2).blk t).view.read (Elt Ideal) (Vox.IDX (V c main_arg1)) := by
  show (cfg0.win 2).cut (grid0.coords t) ((dat0 V c).after 2 t) = _
  rw [after0_2]
  unfold out0_2
  rw [View.canon_unit_zero off_zero]
  simp only [View.ld_unit_zero (S := S1x3x65536) off_zero]
  funext j
  obtain ⟨z, z', n, rfl⟩ : ∃ z z' n, j = ix3 z z' n := ⟨j 0, j 1, j 2, eq_ix3 j⟩
  refine (PayA.pay1_apply _ _ z z' n).trans ?_
  show _ = Vox.IDX (V c main_arg1) (((cfg0.win 2).blk t).view.emb (ix3 z z' n))
  have eb : BitVec.ofNat 32 ((grid0.coords t) 0).val = BitVec.ofNat 32 (cloudOf t).val :=
    congrArg (BitVec.ofNat 32) (idx_facts t).1
  rw [emb2 t z z' n, Vox.IDX_ix3, blockCloud_iblk V c t, eb]

/-- Every index `(b, k, n)` of the coordinate array lies in a block that is written back: it is element `(0, k, n)` of
    grid point `b`'s block. -/
theorem cover1 (i : (⟨3, ![16, 3, 65536]⟩ : Shape).Idx) :
    ∃ t : Fin cfg0.N, (cfg0.win 1).flush t = true ∧ i ∈ ((cfg0.win 1).blk t).view.set := by
  obtain ⟨b, k, n, rfl⟩ : ∃ b k n, i = ix3 b k n := ⟨i 0, i 1, i 2, eq_ix3 i⟩
  refine ⟨⟨b.val, b.isLt⟩, flush0_1 _, ?_⟩
  have h := ((cfg0.win 1).blk ⟨b.val, b.isLt⟩).view.emb_mem_set (ix3 0 k n)
  rw [emb1] at h
  exact h

/-- Every index `(b, 0, n)` of the index array lies in a block that is written back: grid point `b`'s. -/
theorem cover2 (i : (⟨3, ![16, 1, 65536]⟩ : Shape).Idx) :
    ∃ t : Fin cfg0.N, (cfg0.win 2).flush t = true ∧ i ∈ ((cfg0.win 2).blk t).view.set := by
  obtain ⟨b, z, n, rfl⟩ : ∃ b z n, i = ix3 b z n := ⟨i 0, i 1, i 2, eq_ix3 i⟩
  refine ⟨⟨b.val, b.isLt⟩, flush0_2 _, ?_⟩
  have h := ((cfg0.win 2).blk ⟨b.val, b.isLt⟩).view.emb_mem_set (ix3 0 z n)
  rw [emb2] at h
  exact h

/-- The coordinate array after the region: the normalised coordinates of all sixteen clouds. -/
theorem final0_1 (c : Dev nD) : (dat0 (F := Ideal) V c).arrAt 1 cfg0.N = Vox.NC (V c main_arg1) :=
  (dat0 V c).arrAt_eq_of_cover 1 (Vox.NC (V c main_arg1)) (fun t _ => flushed1_eq V c t) cover1

/-- The index array after the region: the cells of all points, one row per cloud. -/
theorem final0_2 (c : Dev nD) : (dat0 (F := Ideal) V c).arrAt 2 cfg0.N = Vox.IDX (V c main_arg1) :=
  (dat0 V c).arrAt_eq_of_cover 2 (Vox.IDX (V c main_arg1)) (fun t _ => flushed2_eq V c t) cover2

end Cert.KernelIdeal.Val

end
-- ==== Proof.PayB.lean ====
/-
  The second kernel's body at one element: a row's feature sum divided by the larger of the row's count and one.
-/
import proofs.«138395_j15436112462068_1_alg».proof.Proof.Gen.KernelIdeal.Skeleton
import proofs.«138395_j15436112462068_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayB

open Idealize.ShloMosaic Idealize.ShloMosaic.TcCoe Idealize.ShloMosaic.ValueIdx Idealize.SL.Sem Cert.KernelIdeal Cert.KernelIdeal.Gen

theorem pay1_apply (s : Vec Ideal S8192x64 .f32) (c : Vec Ideal S8192 .f32) (r : Fin 8192) (ch : Fin 64) :
    k1_pay1 (F := Ideal) s c (ix2 r ch) = Ideal.div (s (ix2 r ch)) (max (c (ix1 r)) (Ideal.ofBits .f32 0x3F800000#32)) := by
  unfold k1_pay1
  -- the quotient is pointwise: numerator and denominator read at (r, ch)
  refine (divf_apply _ _ (ix2 r ch)).trans ?_
  -- the numerator: a cast to the same shape is the identity
  rw [shapeCast_self]
  refine congrArg (Ideal.div (s (ix2 r ch))) ?_
  -- the denominator: the column [8192, 1] spread over 64 channels reads its row r
  refine (broadcastTo_apply _ _ (ix2 r ch) (ix2 r (0 : Fin 1)) (fun a => ?_)).trans ?_
  · match a with
    | ⟨0, _⟩ => rfl
    | ⟨1, _⟩ => rfl
  -- the column is the vector [8192] reshaped: position (r, 0) of the column is position r of the vector
  refine (shapeCast_apply _ _ (ix2 r (0 : Fin 1)) (ix1 r) (by
    rw [Shape.rowMajor_val_one, Shape.rowMajor_val_two]
    show r.val = r.val * 1 + 0
    omega)).trans ?_
  -- the larger of the count and one, pointwise; the count's cast to its own shape is the identity
  refine (maximumf_apply _ _ (ix1 r)).trans ?_
  rw [shapeCast_self]
  rfl

end Cert.KernelIdeal.PayB

end
-- ==== Proof.Region1.lean ====
/-
  The second region, from blocks to the array: grid point t stages rows 8192 t … 8192 t + 8191 of the sums and of the
  counts and writes back their quotient rows; the 64 blocks tile the output, which ends at the average of the whole
  arrays.
-/
import proofs.«138395_j15436112462068_1_alg».proof.Proof.FrameKernelIdeal
import proofs.«138395_j15436112462068_1_alg».proof.Proof.Spec
import proofs.«138395_j15436112462068_1_alg».proof.Proof.PayB
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.TcCoe Idealize.ShloMosaic.ValueIdx Idealize.SL.Sem Cert.KernelIdeal Cert.KernelIdeal.Gen Cert.KernelIdeal.GenP Idealize.ShloMosaic.Pipeline

variable (V : (c : Dev nD) → (b : Ref sig .tc) → Buf (Elt Ideal) ((c : Thread nD τ).loc b))

/-- A staged block of rows starts at offset zero on both of its axes. -/
theorem avg_off_zero2 : (![0, 0] : Fin 2 → Nat) = fun _ => 0 := funext fun a => by fin_cases a <;> rfl

/-- A staged block of counts starts at offset zero. -/
theorem avg_off_zero1 : (![0] : Fin 1 → Nat) = fun _ => 0 := funext fun a => by fin_cases a <;> rfl

/-- The index maps, decided once over the 64 grid points: point `t` puts the block of sums and the block it writes
    back at block index `(t, 0)` and the block of counts at block index `t`. -/
theorem avg_idx_facts : ∀ t : Fin cfg1.N, win1_0.index t (0 : Fin 2) = t.val ∧ win1_0.index t (1 : Fin 2) = 0
    ∧ win1_1.index t (0 : Fin 1) = t.val
    ∧ win1_2.index t (0 : Fin 2) = t.val ∧ win1_2.index t (1 : Fin 2) = 0 :=
  (by decide +kernel : ∀ t : Fin grid1.N, _)

/-- What point `t` writes back is block `t` of the average of the whole arrays. -/
theorem avg_flushed_eq (c : Dev nD) (t : Fin cfg1.N) :
    (dat1 (F := Ideal) V c).flushed 2 t
      = ((cfg1.win 2).blk t).view.read (Elt Ideal) (Vox.avg (V c main_v7) (V c main_v11)) := by
  show (cfg1.win 2).cut (grid1.coords t) ((dat1 V c).after 2 t) = _
  rw [after1_2]
  unfold out1_2
  rw [View.canon_unit_zero avg_off_zero2]
  simp only [View.ld_unit_zero (S := S8192x64) avg_off_zero2, View.ld_unit_zero (S := S8192) avg_off_zero1]
  funext j
  obtain ⟨r, ch, rfl⟩ : ∃ (r : Fin 8192) (ch : Fin 64), j = ix2 r ch := ⟨j 0, j 1, eq_ix2 j⟩
  refine (PayB.pay1_apply _ _ r ch).trans ?_
  obtain ⟨e00, e01, e10, e20, e21⟩ := avg_idx_facts t
  have ht : t.val < 64 := t.isLt
  have hr : r.val < 8192 := r.isLt
  -- element (r, ch) of the block written back is element (8192 t + r, ch) of the array
  have hemb : ((cfg1.win 2).blk t).view.emb (ix2 r ch)
      = ix2 (⟨8192 * t.val + r.val, by omega⟩ : Fin 524288) ch := by
    funext a; apply Fin.ext
    match a with
    | ⟨0, _⟩ => show win1_2.index t (0 : Fin 2) * 8192 + 1 * r.val = 8192 * t.val + r.val; omega
    | ⟨1, _⟩ => show win1_2.index t (1 : Fin 2) * 64 + 1 * ch.val = ch.val; omega
  -- and so is element (r, ch) of the staged block of sums
  have hsum : iblk1 V c 0 t (ix2 r ch)
      = V c main_v7 (ix2 (⟨8192 * t.val + r.val, by omega⟩ : Fin 524288) ch) := by
    show V c main_v7 (((cfg1.win 0).blk t).view.emb (ix2 r ch)) = _
    refine congrArg (V c main_v7) (funext fun a => Fin.ext ?_)
    match a with
    | ⟨0, _⟩ => show win1_0.index t (0 : Fin 2) * 8192 + 1 * r.val = 8192 * t.val + r.val; omega
    | ⟨1, _⟩ => show win1_0.index t (1 : Fin 2) * 64 + 1 * ch.val = ch.val; omega
  -- element r of the staged block of counts is the count of row 8192 t + r
  have hcnt : iblk1 V c 1 t (ix1 r)
      = V c main_v11 (ix1 (⟨8192 * t.val + r.val, by omega⟩ : Fin 524288)) := by
    show V c main_v11 (((cfg1.win 1).blk t).view.emb (ix1 r)) = _
    refine congrArg (V c main_v11) (funext fun a => Fin.ext ?_)
    match a with
    | ⟨0, _⟩ => show win1_1.index t (0 : Fin 1) * 8192 + 1 * r.val = 8192 * t.val + r.val; omega
  show _ = Vox.avg (V c main_v7) (V c main_v11) (((cfg1.win 2).blk t).view.emb (ix2 r ch))
  rw [hemb, Vox.avg_ix2, hsum, hcnt]

/-- A row of the array lies in point `t`'s block iff each coordinate is in the block's range on its axis. -/
theorem avg_mem_blk (t : Fin cfg1.N) (i : S524288x64.Idx) :
    i ∈ ((cfg1.win 2).blk t).view.set ↔ ∀ a : Fin 2, win1_2.index t a * S8192x64.size a ≤ (i a).val
      ∧ (i a).val < win1_2.index t a * S8192x64.size a + S8192x64.size a := by
  show i ∈ ((View.whole main_v12).slice (win1_2.rect t)).set ↔ _
  rw [View.set_slice_whole, Rect.mem_set_unit]
  exact Iff.rfl

/-- The 64 blocks of 8192 rows tile the 524288 rows (row `R` is in block `R / 8192`), and each is written back as the
    average's block, so the output array ends at the average of the sums by the counts. -/
theorem final1_2 (c : Dev nD) : (dat1 (F := Ideal) V c).arrAt 2 cfg1.N = Vox.avg (V c main_v7) (V c main_v11) := by
  refine (dat1 V c).arrAt_eq_of_cover 2 (Vox.avg (V c main_v7) (V c main_v11))
    (fun t _ => avg_flushed_eq V c t) (fun i => ?_)
  have hi0 : (i 0).val < 524288 := (i 0).isLt
  have hi1 : (i 1).val < 64 := (i 1).isLt
  obtain ⟨t, htv⟩ : ∃ t : Fin cfg1.N, t.val = (i 0).val / 8192 :=
    ⟨⟨(i 0).val / 8192, show (i 0).val / 8192 < 64 by omega⟩, rfl⟩
  obtain ⟨-, -, -, e20, e21⟩ := avg_idx_facts t
  refine ⟨t, flush1_2 t, ?_⟩
  rw [avg_mem_blk]
  intro a
  match a with
  | ⟨0, _⟩ =>
    show win1_2.index t (0 : Fin 2) * 8192 ≤ (i 0).val ∧ (i 0).val < win1_2.index t (0 : Fin 2) * 8192 + 8192
    omega
  | ⟨1, _⟩ =>
    show win1_2.index t (1 : Fin 2) * 64 ≤ (i 1).val ∧ (i 1).val < win1_2.index t (1 : Fin 2) * 64 + 64
    omega

end Cert.KernelIdeal.Val

end
-- ==== Proof.KernelValue.lean ====
/-
  The idealized kernel's two results, read back through the run: the coordinate result is what the first region's
  sixteen write-backs leave, the specification's normalised coordinates; the grid result is the transposed, reshaped
  average of the scattered feature sums by the scattered counts, both scattered at the cells the first region wrote,
  flattened.
-/
import proofs.«138395_j15436112462068_1_alg».proof.Proof.RunKernelIdeal
import proofs.«138395_j15436112462068_1_alg».proof.Proof.Region0
import proofs.«138395_j15436112462068_1_alg».proof.Proof.Region1
import proofs.«138395_j15436112462068_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Idealize.ShloMosaic Idealize.ShloMosaic.TcCoe Idealize.ShloMosaic.ValueIdx Idealize.SL.Sem Cert.KernelIdeal Cert.KernelIdeal.Gen Cert.KernelIdeal.GenP Idealize.ShloMosaic.Pipeline Idealize.ShloMosaic.StableHlo

variable (m : (ℓ : Loc nD τ sig) → Buf (Elt Ideal) ℓ) (ρ : Dev nD → PrngReg)

/-! ## What the first region leaves -/

/-- The coordinate array after the first region: the normalised coordinates of the coordinate argument. -/
theorem W1_nc (c : Dev nD) :
    W1 m ρ c (Proc.devRef .tc main_v0_0) = Vox.NC (m ((c.tc : Thread nD τ).loc main_arg1)) :=
  (W1_arr m ρ c 1).trans (final0_1 (V0 m ρ) c)

/-- The index array after the first region: the cells of the coordinate argument's points. -/
theorem W1_idx (c : Dev nD) :
    W1 m ρ c (Proc.devRef .tc main_v0_1) = Vox.IDX (m ((c.tc : Thread nD τ).loc main_arg1)) :=
  (W1_arr m ρ c 2).trans (final0_2 (V0 m ρ) c)

/-- The first region does not write the feature argument. -/
theorem W1_arg0 (c : Dev nD) :
    W1 m ρ c (Proc.devRef .tc main_arg0) = m ((c.tc : Thread nD τ).loc main_arg0) :=
  W1_of_ne m ρ c main_arg0 (by decide)

/-! ## The cells, flattened -/

/-- Reshaping the [16, 1, 65536] cell array to [16, 65536] and then to one list of 1048576 points keeps each point's
    cell: point `p` of the list is point `p % 65536` of cloud `p / 65536`. -/
theorem flat_of_IDX (x : (⟨3, ![16, 3, 65536]⟩ : Shape).Idx → EReal) :
    shapeCast S1048576 (shapeCast S16x65536 (Vox.IDX x) shapeCasts_S16x1x65536_S16x65536) shapeCasts_S16x65536_S1048576
      = Vox.FLAT x := by
  funext p
  have hp : (p 0).val < 1048576 := (p 0).isLt
  refine (shapeCast_apply _ shapeCasts_S16x65536_S1048576 p
    (ix2 (⟨(p 0).val / 65536, by omega⟩ : Fin 16) (⟨(p 0).val % 65536, Nat.mod_lt _ (by decide)⟩ : Fin 65536)) ?_).trans ?_
  · rewrite [Shape.rowMajor_val_two, Shape.rowMajor_val_one]
    show (p 0).val / 65536 * 65536 + (p 0).val % 65536 = (p 0).val
    omega
  refine (shapeCast_apply _ shapeCasts_S16x1x65536_S16x65536 _
    (ix3 (⟨(p 0).val / 65536, by omega⟩ : Fin 16) (0 : Fin 1) (⟨(p 0).val % 65536, Nat.mod_lt _ (by decide)⟩ : Fin 65536)) ?_).trans ?_
  · rewrite [Shape.rowMajor_val_three, Shape.rowMajor_val_two]
    show ((p 0).val / 65536 * 1 + 0) * 65536 + (p 0).val % 65536 = (p 0).val / 65536 * 65536 + (p 0).val % 65536
    omega
  rfl

/-! ## The host stretch between the regions: the scatters -/

/-- The per-cell feature sums: the features, transposed to one row of 64 channels per point and flattened over the
    clouds, scatter-added from zero at each point's cell. -/
def sums (x0 : FVec Ideal S16x64x65536 .f32) (flat : IVec S1048576 32) : FVec Ideal S524288x64 .f32 :=
  Host.scatterAdd (F := Ideal) scatter_S524288x64_S1048576x1_S1048576x64_1_0_0_1
    (broadcastInDim S524288x64 ![] bcast_S_S524288x64 (constant (F := Ideal) S_ .f32 0x00000000#32))
    (broadcastInDim S1048576x1 ![0] bcast_S1048576_S1048576x1_0 flat)
    (shapeCast S1048576x64 (transpose S16x65536x64 [0, 2, 1] x0 transposes_S16x64x65536_S16x65536x64_0_2_1)
      shapeCasts_S16x65536x64_S1048576x64)

/-- The per-cell counts: ones scatter-added from zero at each point's cell. -/
def counts (flat : IVec S1048576 32) : FVec Ideal S524288 .f32 :=
  Host.scatterAdd (F := Ideal) scatter_S524288_S1048576x1_S1048576_n_0_0_1
    (broadcastInDim S524288 ![] bcast_S_S524288 (constant (F := Ideal) S_ .f32 0x00000000#32))
    (broadcastInDim S1048576x1 ![0] bcast_S1048576_S1048576x1_0 flat)
    (broadcastInDim S1048576 ![] bcast_S_S1048576 (constant (F := Ideal) S_ .f32 0x3F800000#32))

/-- The grid result: the averages, reshaped to [16, 32, 32, 32, 64] and transposed to channels-second. -/
def grid (x0 : FVec Ideal S16x64x65536 .f32) (flat : IVec S1048576 32) : FVec Ideal S16x64x32x32x32 .f32 :=
  transpose S16x64x32x32x32 [0, 4, 1, 2, 3]
    (shapeCast S16x32x32x32x64 (Vox.avg (sums x0 flat) (counts flat)) shapeCasts_S524288x64_S16x32x32x32x64)
    transposes_S16x32x32x32x64_S16x64x32x32x32_0_4_1_2_3

/-- The sums buffer at the second region's entry. -/
theorem W2_sums (c : Dev nD) :
    W2 m ρ c (Proc.devRef .tc main_v7)
      = sums (m ((c.tc : Thread nD τ).loc main_arg0)) (Vox.FLAT (m ((c.tc : Thread nD τ).loc main_arg1))) := by
  show StableHlo.after hostOps1 (W1 m ρ c) (Proc.devRef .tc main_v7) = _
  after_results
  rw [W1_idx m ρ c, W1_arg0 m ρ c, ← flat_of_IDX]
  rfl

/-- The counts buffer at the second region's entry. -/
theorem W2_counts (c : Dev nD) :
    W2 m ρ c (Proc.devRef .tc main_v11) = counts (Vox.FLAT (m ((c.tc : Thread nD τ).loc main_arg1))) := by
  show StableHlo.after hostOps1 (W1 m ρ c) (Proc.devRef .tc main_v11) = _
  after_results
  rw [W1_idx m ρ c, ← flat_of_IDX]
  rfl

/-! ## The second region and the last stretch -/

/-- The averages' buffer after the second region. -/
theorem W3_avg (c : Dev nD) :
    W3 m ρ c (Proc.devRef .tc main_v12)
      = Vox.avg (sums (m ((c.tc : Thread nD τ).loc main_arg0)) (Vox.FLAT (m ((c.tc : Thread nD τ).loc main_arg1))))
          (counts (Vox.FLAT (m ((c.tc : Thread nD τ).loc main_arg1)))) :=
  (W3_arr m ρ c 2).trans ((final1_2 (V2 m ρ) c).trans (congrArg₂ Vox.avg (W2_sums m ρ c) (W2_counts m ρ c)))

/-- The grid result at the end of the run. -/
theorem W4_grid (c : Dev nD) :
    W4 m ρ c (Proc.devRef .tc main_v14)
      = grid (m ((c.tc : Thread nD τ).loc main_arg0)) (Vox.FLAT (m ((c.tc : Thread nD τ).loc main_arg1))) := by
  show StableHlo.after hostOps2 (W3 m ρ c) (Proc.devRef .tc main_v14) = _
  after_results
  rw [W3_avg m ρ c]
  rfl

/-- The coordinate result at the end of the run: no later operation or region writes it. -/
theorem W4_nc (c : Dev nD) :
    W4 m ρ c (Proc.devRef .tc main_v0_0) = Vox.NC (m ((c.tc : Thread nD τ).loc main_arg1)) := by
  show StableHlo.after hostOps2 (W3 m ρ c) (Proc.devRef .tc main_v0_0) = _
  after_results
  rw [W3_of_ne m ρ c main_v0_0 (by decide)]
  show StableHlo.after hostOps1 (W1 m ρ c) (Proc.devRef .tc main_v0_0) = _
  after_results
  exact W1_nc m ρ c

/-! ## The run -/

/-- Every weakly fair execution of the idealized kernel terminates with the grid result at the specification's grid
    and the coordinate result at the specification's normalised coordinates, the arguments unchanged. -/
theorem run : θ_run defs (onTc (τ := τ) (main (F := Ideal))) ⟨m, fun _ => 0, ρ⟩ (fun r => ∀ c : Dev nD,
      r.2.mem ((c.tc : Thread nD τ).loc main_v14)
        = grid (m ((c.tc : Thread nD τ).loc main_arg0)) (Vox.FLAT (m ((c.tc : Thread nD τ).loc main_arg1)))
      ∧ r.2.mem ((c.tc : Thread nD τ).loc main_v0_0) = Vox.NC (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨(h c).1.trans (W4_grid m ρ c), (h c).2.1.trans (W4_nc m ρ c), (h c).2.2.1, (h c).2.2.2⟩)
    (run_main (F := Ideal) m ρ)

end Cert.KernelIdeal.Val

end
-- ==== Proof.Ref.lean ====
/-
  The reference's stages are the specification: its clipped coordinates are the normalised coordinates of the sixteen
  clouds, and its flattened voxel indices are the points' cells.
-/
import proofs.«138395_j15436112462068_1_alg».proof.Proof.Gen.ReferenceIdeal.Read
import proofs.«138395_j15436112462068_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Idealize.ShloMosaic Idealize.ShloMosaic.TcCoe Idealize.ShloMosaic.ValueIdx Idealize.SL.Sem Cert.ReferenceIdeal Cert.ReferenceIdeal.Gen Cert.ReferenceIdeal.Read

/-! ## The mean, the centred coordinates, the norms and the radius -/

/-- The mean stage at row `(b, k)`: the row's sum from zero, divided by the number of points. -/
theorem v3_mean (x : (⟨S16x3x65536, .f32⟩ : BufTy).Contents (Elt Ideal)) (b : Fin 16) (k : Fin 3) (z : Fin 1) :
    val_main_v3 (F := Ideal) x (ix3 b k z) = Vox.mean (Vox.cloud x b) k := by
  rw [val_main_v3_apply, val_main_v1_apply, val_main_v0_apply, val_main_v2_apply, val_main_cst_0_apply,
    val_main_cst_apply]
  show Ideal.div (Ideal.ofBits .f32 0x00000000#32 + _) (Ideal.ofBits .f32 0x47800000#32) = _
  rw [Ideal.ofBits_zero_f32, zero_add]
  have hs : (∑ n : Fin 65536, x (idx_main_v0 (idx_main_v1 (ix3 b k z)) n)) = ∑ n : Fin 65536, x (ix3 b k n) :=
    Finset.sum_congr rfl fun n _ => congrArg x
      (funext fun a => Fin.ext (by match a with | ⟨0, _⟩ => rfl | ⟨1, _⟩ => rfl | ⟨2, _⟩ => rfl))
  rw [hs]
  rfl

/-- The subtraction stage at `(b, k, n)`: the coordinate less its row's mean. -/
theorem v5_cen (x : (⟨S16x3x65536, .f32⟩ : BufTy).Contents (Elt Ideal)) (b : Fin 16) (k : Fin 3) (n : Fin 65536) :
    val_main_v5 (F := Ideal) x (ix3 b k n) = Vox.cen (Vox.cloud x b) k n := by
  rw [val_main_v5_apply, val_main_v4_apply]
  have e : idx_main_v4 (ix3 b k n) = ix3 b k (0 : Fin 1) :=
    funext fun a => Fin.ext (by match a with | ⟨0, _⟩ => rfl | ⟨1, _⟩ => rfl | ⟨2, _⟩ => rfl)
  rw [e, v3_mean]
  rfl

/-- The norm stage at point `n` of cloud `b`: the root of the three centred coordinates' squares, summed from zero. -/
theorem v6_nrm (x : (⟨S16x3x65536, .f32⟩ : BufTy).Contents (Elt Ideal)) (b : Fin 16) (z : Fin 1) (n : Fin 65536) :
    val_main_v6 (F := Ideal) x (ix3 b z n) = Vox.nrm (Vox.cloud x b) n := by
  rw [val_main_v6_apply, val_main_call0_v2_apply, val_main_call0_v1_apply, val_main_call0_cst_apply]
  show Ideal.sqrt (Ideal.ofBits .f32 0x00000000#32 + _) = _
  rw [Ideal.ofBits_zero_f32, zero_add]
  have hs : (∑ k : Fin 3, val_main_call0_v0 (F := Ideal) x (idx_main_call0_v1 (idx_main_call0_v2 (ix3 b z n)) k))
      = ∑ k : Fin 3, Vox.cen (Vox.cloud x b) k n * Vox.cen (Vox.cloud x b) k n :=
    Finset.sum_congr rfl fun k _ => by
      have e : idx_main_call0_v1 (idx_main_call0_v2 (ix3 b z n)) k = ix3 b k n :=
        funext fun a => Fin.ext (by match a with | ⟨0, _⟩ => rfl | ⟨1, _⟩ => rfl | ⟨2, _⟩ => rfl)
      rw [e, val_main_call0_v0_apply, v5_cen]
      rfl
  rw [hs]
  rfl

/-- The radius stage at cloud `b`: the maximum, from minus infinity, of the cloud's norms. -/
theorem v7_rad (x : (⟨S16x3x65536, .f32⟩ : BufTy).Contents (Elt Ideal)) (b : Fin 16) (z : Fin 1) :
    val_main_v7 (F := Ideal) x (ix2 b z) = Vox.rad (Vox.cloud x b) := by
  have h : S16x1x65536.Reduces [2] S16x1 := by decide
  unfold val_main_v7
  have e := Host.reduce_eq_fold_single (FloatOps.maximumf (F := Ideal) (φ := .f32)) (val_main_v6 (F := Ideal) x)
    (val_main_cst_1 (F := Ideal)) reducesTo_S16x1x65536_S16x1_d2 h h_S_ (ix2 b z)
  refine e.trans ?_
  have hf : (val_main_v6 (F := Ideal) x ∘ h.lift (ix2 b z)) = fun n : Fin 65536 => Vox.nrm (Vox.cloud x b) n :=
    funext fun n => by
      have e : h.lift (ix2 b z) n = ix3 b z (⟨n.val, n.isLt⟩ : Fin 65536) := by
        funext c; apply Fin.ext
        fin_cases c <;> rfl
      show val_main_v6 (F := Ideal) x (h.lift (ix2 b z) n) = _
      rw [e, v6_nrm]
      rfl
  exact congrArg (fun f => Finset.fold max (Ideal.ofBits .f32 0xFF800000#32) f (Finset.univ : Finset (Fin 65536))) hf

/-! ## The normalised coordinates -/

/-- The clipping stage at `(b, k, n)`: the centred coordinate over twice the radius, shifted, scaled and clipped. -/
theorem v19_nc (x : (⟨S16x3x65536, .f32⟩ : BufTy).Contents (Elt Ideal)) (b : Fin 16) (k : Fin 3) (n : Fin 65536) :
    val_main_v19 (F := Ideal) x (ix3 b k n) = Vox.nc (Vox.cloud x b) k n := by
  rw [val_main_v19_apply, val_main_call1_v4_apply, val_main_call1_v3_apply, val_main_c_apply,
    val_main_call1_v2_apply, val_main_call1_v1_apply, val_main_call1_v0_apply, val_main_cst_6_apply,
    val_main_v18_apply, val_main_v17_apply, val_main_cst_5_apply, val_main_v16_apply, val_main_v15_apply,
    val_main_cst_4_apply, val_main_v14_apply, val_main_v13_apply, val_main_v12_apply, val_main_v11_apply,
    val_main_cst_3_apply, val_main_v10_apply, val_main_v9_apply, val_main_cst_2_apply, val_main_v8_apply, v5_cen]
  have e : idx_main_v8 (idx_main_v13 (ix3 b k n)) = ix2 b (0 : Fin 1) :=
    funext fun a => Fin.ext (by match a with | ⟨0, _⟩ => rfl | ⟨1, _⟩ => rfl)
  rw [e, v7_rad]
  unfold Vox.nc
  rw [Vox.ofBits_31]
  rfl

theorem nc_eq (x : (⟨S16x3x65536, .f32⟩ : BufTy).Contents (Elt Ideal)) : val_main_v19 (F := Ideal) x = Vox.NC x := by
  funext i
  obtain ⟨b, k, n, rfl⟩ : ∃ b k n, i = ix3 b k n := ⟨i 0, i 1, i 2, eq_ix3 i⟩
  rw [Vox.NC_ix3]
  exact v19_nc x b k n

/-! ## The cells -/

/-- The conversion stage at `(b, k, n)`: the normalised coordinate rounded half to even, as an integer. -/
theorem v21_vox (x : (⟨S16x3x65536, .f32⟩ : BufTy).Contents (Elt Ideal)) (b : Fin 16) (k : Fin 3) (n : Fin 65536) :
    val_main_v21 (F := Ideal) x (ix3 b k n) = Vox.vox (Vox.cloud x b) k n := by
  rw [val_main_v21_apply, val_main_v20_apply, v19_nc, Ideal.hostUnary_roundeven_def]
  unfold Vox.vox
  show Ideal.fptosi 32 _ = Ideal.fptosi 32 _
  rfl

/-- The stage before the flattening at `(b, n)`: the three voxel coordinates of point `n` in base 32, offset by
    32768 times the cloud's number. Each coordinate's slice, reshaped to one row per cloud, reads `(b, c, n)`:
    `(65536 b + n) / 65536 = b` and `(65536 b + n) % 65536 = n`. -/
theorem v39_cell (x : (⟨S16x3x65536, .f32⟩ : BufTy).Contents (Elt Ideal)) (b : Fin 16) (n : Fin 65536) :
    val_main_v39 (F := Ideal) x (ix2 b n) = Vox.cell (Vox.cloud x b) (BitVec.ofNat 32 b.val) n := by
  have hb : b.val < 16 := b.isLt
  have hn : n.val < 65536 := n.isLt
  have e0 : idx_main_v22 (idx_main_v23 (ix2 b n)) = ix3 b (0 : Fin 3) n := funext fun a => Fin.ext (by
    match a with
    | ⟨0, _⟩ => show (b.val * 65536 + n.val) / 65536 = b.val; omega
    | ⟨1, _⟩ => rfl
    | ⟨2, _⟩ => show (b.val * 65536 + n.val) % 65536 = n.val; omega)
  have e1 : idx_main_v26 (idx_main_v27 (ix2 b n)) = ix3 b (1 : Fin 3) n := funext fun a => Fin.ext (by
    match a with
    | ⟨0, _⟩ => show (b.val * 65536 + n.val) / 65536 = b.val; omega
    | ⟨1, _⟩ => rfl
    | ⟨2, _⟩ => show (b.val * 65536 + n.val) % 65536 = n.val; omega)
  have e2 : idx_main_v31 (idx_main_v32 (ix2 b n)) = ix3 b (2 : Fin 3) n := funext fun a => Fin.ext (by
    match a with
    | ⟨0, _⟩ => show (b.val * 65536 + n.val) / 65536 = b.val; omega
    | ⟨1, _⟩ => rfl
    | ⟨2, _⟩ => show (b.val * 65536 + n.val) % 65536 = n.val; omega)
  rw [val_main_v39_apply, val_main_v33_apply, val_main_v30_apply, val_main_v28_apply, val_main_v25_apply,
    val_main_v23_apply, val_main_v22_apply, e0, val_main_v27_apply, val_main_v26_apply, e1,
    val_main_v32_apply, val_main_v31_apply, e2, v21_vox, v21_vox, v21_vox,
    val_main_v24_apply, val_main_c_7_apply, val_main_v29_apply, val_main_c_8_apply,
    val_main_v38_apply, val_main_v37_apply, val_main_v35_apply, val_main_v34_apply, val_main_v36_apply,
    val_main_c_9_apply]
  rfl

theorem flat_eq (x : (⟨S16x3x65536, .f32⟩ : BufTy).Contents (Elt Ideal)) : val_main_v40 (F := Ideal) x = Vox.FLAT x := by
  funext i
  obtain ⟨p, rfl⟩ : ∃ p : Fin 1048576, i = ix1 p := ⟨i 0, eq_ix1 i⟩
  have hp : p.val < 1048576 := p.isLt
  have e : idx_main_v40 (ix1 p)
      = ix2 (⟨p.val / 65536, by omega⟩ : Fin 16) (⟨p.val % 65536, Nat.mod_lt _ (by decide)⟩ : Fin 65536) :=
    funext fun a => Fin.ext (by match a with | ⟨0, _⟩ => rfl | ⟨1, _⟩ => rfl)
  rw [val_main_v40_apply, e, v39_cell]
  rfl

end Cert.ReferenceIdeal.RefValue

end
-- ==== Proof.RefAvg.lean ====
/-
  The reference's last division is the average of the scattered sums by the scattered counts.
-/
import proofs.«138395_j15436112462068_1_alg».proof.Proof.Gen.ReferenceIdeal.Read
import proofs.«138395_j15436112462068_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefAvg

open Idealize.ShloMosaic Idealize.ShloMosaic.TcCoe Idealize.ShloMosaic.ValueIdx Idealize.SL.Sem Cert.ReferenceIdeal Cert.ReferenceIdeal.Gen Cert.ReferenceIdeal.Read

theorem avg_eq (x0 : (⟨S16x64x65536, .f32⟩ : BufTy).Contents (Elt Ideal)) (x1 : (⟨S16x3x65536, .f32⟩ : BufTy).Contents (Elt Ideal)) :
    val_main_v54 (F := Ideal) x0 x1 = Vox.avg (val_main_v45 (F := Ideal) x0 x1) (val_main_v49 (F := Ideal) x1) := by
  funext i
  obtain ⟨r, ch, rfl⟩ : ∃ (r : Fin 524288) (ch : Fin 64), i = ix2 r ch := ⟨i 0, i 1, eq_ix2 i⟩
  rw [Vox.avg_ix2]
  -- the quotient at (r, ch): the sums at (r, ch) over the spread denominator at (r, ch)
  rw [val_main_v54_apply, val_main_v53_apply, val_main_v52_apply]
  -- the two spreads read the row's entry of the vector of denominators
  have hix : idx_main_v52 (idx_main_v53 (ix2 r ch)) = ix1 r :=
    funext fun a => Fin.ext (by match a with | ⟨0, _⟩ => rfl)
  rw [hix, val_main_v51_apply, val_main_v50_apply, val_main_cst_13_apply]
  rfl

end Cert.ReferenceIdeal.RefAvg

end
-- ==== Proof.RefGrid.lean ====
/-
  The reference's grid result as one composition over the points' cells: the feature sums and the counts scattered at
  the flat cells, averaged, reshaped and transposed.
-/
import proofs.«138395_j15436112462068_1_alg».proof.Proof.Ref
import proofs.«138395_j15436112462068_1_alg».proof.Proof.RefAvg
import proofs.«138395_j15436112462068_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Idealize.ShloMosaic Idealize.ShloMosaic.TcCoe Idealize.ShloMosaic.ValueIdx Idealize.SL.Sem Cert.ReferenceIdeal Cert.ReferenceIdeal.Gen Cert.ReferenceIdeal.Read

/-- The per-cell feature sums: the features, one row of 64 channels per point, scatter-added from zero at each
    point's cell. -/
def sums (x0 : FVec Ideal S16x64x65536 .f32) (flat : IVec S1048576 32) : FVec Ideal S524288x64 .f32 :=
  Host.scatterAdd (F := Ideal) scatter_S524288x64_S1048576x1_S1048576x64_1_0_0_1
    (broadcastInDim S524288x64 ![] bcast_S_S524288x64 (constant (F := Ideal) S_ .f32 0x00000000#32))
    (broadcastInDim S1048576x1 ![0] bcast_S1048576_S1048576x1_0 flat)
    (shapeCast S1048576x64 (transpose S16x65536x64 [0, 2, 1] x0 transposes_S16x64x65536_S16x65536x64_0_2_1)
      shapeCasts_S16x65536x64_S1048576x64)

/-- The per-cell counts: ones scatter-added from zero at each point's cell. -/
def counts (flat : IVec S1048576 32) : FVec Ideal S524288 .f32 :=
  Host.scatterAdd (F := Ideal) scatter_S524288_S1048576x1_S1048576_n_0_0_1
    (broadcastInDim S524288 ![] bcast_S_S524288 (constant (F := Ideal) S_ .f32 0x00000000#32))
    (broadcastInDim S1048576x1 ![0] bcast_S1048576_S1048576x1_0 flat)
    (broadcastInDim S1048576 ![] bcast_S_S1048576 (constant (F := Ideal) S_ .f32 0x3F800000#32))

/-- The grid result: the averages, reshaped to [16, 32, 32, 32, 64] and transposed to channels-second. -/
def grid (x0 : FVec Ideal S16x64x65536 .f32) (flat : IVec S1048576 32) : FVec Ideal S16x64x32x32x32 .f32 :=
  transpose S16x64x32x32x32 [0, 4, 1, 2, 3]
    (shapeCast S16x32x32x32x64 (Vox.avg (sums x0 flat) (counts flat)) shapeCasts_S524288x64_S16x32x32x32x64)
    transposes_S16x32x32x32x64_S16x64x32x32x32_0_4_1_2_3

/-- The reference's last stage is that composition at the cells its own index arithmetic computes. -/
theorem grid_eq (x0 : FVec Ideal S16x64x65536 .f32) (x1 : FVec Ideal S16x3x65536 .f32) :
    val_main_v56 (F := Ideal) x0 x1 = grid x0 (Vox.FLAT x1) := by
  unfold val_main_v56 val_main_v55
  rw [RefAvg.avg_eq]
  unfold val_main_v45 val_main_v49 val_main_v44 val_main_v48
  rw [flat_eq]
  rfl

end Cert.ReferenceIdeal.RefValue

end
-- ==== Proof.lean ====
/-
  Voxelization of sixteen point clouds, a Pallas program against its jnp reference, equal over the extended reals.

  Both programs centre each cloud's three coordinate rows at their means, divide by twice the largest point norm,
  shift by one half, scale by 32 and clip to [0, 31]: the first result. Rounding that to the nearest even integer and
  reading the three voxel coordinates in base 32, offset by 32768 per cloud, gives each point's cell; the features are
  scatter-added by cell, as are ones, and the sums are divided by the larger of the count and one; reshaped and
  transposed, that is the second result.

  The kernel program computes the normalisation and the cells in one pipelined region, a cloud per grid point, leaves
  the two scatters to the host, and divides in a second region over blocks of 8192 cells. The reference does everything
  on the host. Operation by operation the two are the same functions of the extended reals (a division is a division, a
  square root a square root, the sums and the maximum are taken over the same index sets); what differs is the tiling,
  so the proof is a re-indexing: each region's blocks tile its arrays (Region0, Region1), each block's payload read at
  an element is the specification there (PayA, PayB), the reference's stages read at an element are the specification
  too (Ref, RefAvg), and the scatters, never opened, are applied to equal arguments (KernelValue, RefGrid).

  No law of arithmetic is used beyond reading a sum or a maximum over its index set, so the precondition (finite
  inputs) is never opened. The idealization rewrote nothing, so the kernel's sanctioned idealization is its own text.
-/
import proofs.«138395_j15436112462068_1_alg».proof.Defs
import proofs.«138395_j15436112462068_1_alg».proof.Proof.Gen.Kernel
import proofs.«138395_j15436112462068_1_alg».proof.Proof.Gen.KernelIdeal
import proofs.«138395_j15436112462068_1_alg».proof.Proof.Gen.ReferenceIdeal
import proofs.«138395_j15436112462068_1_alg».proof.Proof.Gen.ReferenceIdeal.Run
import proofs.«138395_j15436112462068_1_alg».proof.Proof.Gen.ReferenceIdeal.Read
import proofs.«138395_j15436112462068_1_alg».proof.Proof.Gen.Pre_finite_inputs
import proofs.«138395_j15436112462068_1_alg».proof.Proof.FrameKernel
import proofs.«138395_j15436112462068_1_alg».proof.Proof.FrameKernelIdeal
import proofs.«138395_j15436112462068_1_alg».proof.Proof.KernelValue
import proofs.«138395_j15436112462068_1_alg».proof.Proof.RefGrid
import Idealize.ShloMosaic.Adequacy
import Idealize.ShloMosaic.Init

noncomputable section

namespace Cert.Proof

open Idealize.ShloMosaic Idealize.ShloMosaic.TcCoe Idealize.SL.Sem

/-- The two programs compose the grid result from the flat cells by the same operations: the same scatters, the same
    average, the same reshape and transpose. -/
theorem grid_same (x0 : FVec Ideal Cert.KernelIdeal.S16x64x65536 .f32) (flat : IVec Cert.KernelIdeal.S1048576 32) :
    Cert.ReferenceIdeal.RefValue.grid x0 flat = Cert.KernelIdeal.Val.grid x0 flat := rfl

/-- The word-level kernel runs and leaves its arguments as they were. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- The reference is a host program: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the two arguments both programs end with the grid composed from the specification's
    flat cells and with the specification's normalised coordinates. -/
theorem algebraic : Cert.algebraic_KernelIdeal_ReferenceIdeal := by
  intro m ρ m' ρ' _ hagree
  refine ⟨_, _, Cert.KernelIdeal.Val.run m ρ, ?_⟩
  refine (θ_run Cert.ReferenceIdeal.defs _ _).mono
    (fun _ h c => ⟨(h c).1.trans ?_, (h c).2.1.trans ?_, (h c).2.2.1, (h c).2.2.2⟩)
    (Cert.ReferenceIdeal.Value.run (F := Ideal) m' ρ')
  · refine (Cert.ReferenceIdeal.Read.val_main_v56_eq m' c).trans
      ((Cert.ReferenceIdeal.RefValue.grid_eq _ _).trans ?_)
    rw [(hagree c).1, (hagree c).2]
    exact grid_same _ _
  · refine (Cert.ReferenceIdeal.Read.val_main_v19_eq _).trans ((Cert.ReferenceIdeal.RefValue.nc_eq _).trans ?_)
    rw [(hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
